-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S1x128 : Shape := ⟨2, ![1, 128]⟩

abbrev nBuf : Space → Nat
  | .hbm => 94
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S100000, .f32⟩
  | .hbm, ⟨15, _⟩ => ⟨S_, .i32⟩
  | .hbm, ⟨16, _⟩ => ⟨S1700000, .i32⟩
  | .hbm, ⟨17, _⟩ => ⟨S1700000, .i1⟩
  | .hbm, ⟨18, _⟩ => ⟨S_, .i32⟩
  | .hbm, ⟨19, _⟩ => ⟨S1700000, .i32⟩
  | .hbm, ⟨20, _⟩ => ⟨S1700000, .i32⟩
  | .hbm, ⟨21, _⟩ => ⟨S1700000, .i32⟩
  | .hbm, ⟨22, _⟩ => ⟨S1700000x1, .i32⟩
  | .hbm, ⟨23, _⟩ => ⟨S_, .f32⟩
  | .hbm, ⟨24, _⟩ => ⟨S1700000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .i1⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000, .f32⟩
  | .hbm, ⟨33, _⟩ => ⟨S_, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000, .f32⟩
  | .hbm, ⟨55, _⟩ => ⟨S1700000, .f32⟩
  | .hbm, ⟨56, _⟩ => ⟨S100000x128, .f32⟩
  | .hbm, ⟨57, _⟩ => ⟨S_, .i32⟩
  | .hbm, ⟨58, _⟩ => ⟨S1700000, .i32⟩
  | .hbm, ⟨59, _⟩ => ⟨S1700000, .i1⟩
  | .hbm, ⟨60, _⟩ => ⟨S_, .i32⟩
  | .hbm, ⟨61, _⟩ => ⟨S1700000, .i32⟩
  | .hbm, ⟨62, _⟩ => ⟨S1700000, .i32⟩
  | .hbm, ⟨63, _⟩ => ⟨S1700000, .i32⟩
  | .hbm, ⟨64, _⟩ => ⟨S1700000x1, .i32⟩
  | .hbm, ⟨65, _⟩ => ⟨S1700000x128, .f32⟩
  | .hbm, ⟨66, _⟩ => ⟨S1700000x1, .f32⟩
  | .hbm, ⟨67, _⟩ => ⟨S1700000x128, .f32⟩
  | .hbm, ⟨68, _⟩ => ⟨S1700000x128, .f32⟩
  | .hbm, ⟨69, _⟩ => ⟨S_, .f32⟩
  | .hbm, ⟨70, _⟩ => ⟨S100000x128, .f32⟩
  | .hbm, ⟨71, _⟩ => ⟨S1700000x1, .i32⟩
  | .hbm, ⟨72, _⟩ => ⟨S100000x128, .f32⟩
  | .hbm, ⟨73, _⟩ => ⟨S1x128, .f32⟩
  | .hbm, ⟨74, _⟩ => ⟨S100000x128, .f32⟩
  | .hbm, ⟨75, _⟩ => ⟨S100000x128, .f32⟩
  | .hbm, ⟨76, _⟩ => ⟨S_, .i32⟩
  | .hbm, ⟨77, _⟩ => ⟨S1700000, .i32⟩
  | .hbm, ⟨78, _⟩ => ⟨S1700000, .i1⟩
  | .hbm, ⟨79, _⟩ => ⟨S_, .i32⟩
  | .hbm, ⟨80, _⟩ => ⟨S1700000, .i32⟩
  | .hbm, ⟨81, _⟩ => ⟨S1700000, .i32⟩
  | .hbm, ⟨82, _⟩ => ⟨S1700000, .i32⟩
  | .hbm, ⟨83, _⟩ => ⟨S1700000x1, .i32⟩
  | .hbm, ⟨84, _⟩ => ⟨S1700000x128, .f32⟩
  | .hbm, ⟨85, _⟩ => ⟨S1700000x1, .f32⟩
  | .hbm, ⟨86, _⟩ => ⟨S1700000x128, .f32⟩
  | .hbm, ⟨87, _⟩ => ⟨S1700000x128, .f32⟩
  | .hbm, ⟨88, _⟩ => ⟨S_, .f32⟩
  | .hbm, ⟨89, _⟩ => ⟨S100000x128, .f32⟩
  | .hbm, ⟨90, _⟩ => ⟨S1700000x1, .i32⟩
  | .hbm, ⟨91, _⟩ => ⟨S100000x128, .f32⟩
  | .hbm, ⟨92, _⟩ => ⟨S1x128, .f32⟩
  | .hbm, ⟨93, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S1x128, .f32⟩
  | .local _ .vmem, ⟨18, _⟩ => ⟨S10000x128, .f32⟩
  | .local _ .vmem, ⟨19, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_call0_v0 : Ref sig .tc := ⟨.hbm, 34, rfl⟩
abbrev main_call0_v1 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_c_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_7 : Ref sig .tc := ⟨.hbm, 46, rfl⟩
abbrev main_v29 : Ref sig .tc := ⟨.hbm, 47, rfl⟩
abbrev main_v30 : Ref sig .tc := ⟨.hbm, 48, rfl⟩
abbrev main_c_8 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_9 : Ref sig .tc := ⟨.hbm, 57, rfl⟩
abbrev main_v38 : Ref sig .tc := ⟨.hbm, 58, rfl⟩
abbrev main_v39 : Ref sig .tc := ⟨.hbm, 59, rfl⟩
abbrev main_c_10 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_11 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_c_12 : Ref sig .tc := ⟨.hbm, 76, rfl⟩
abbrev main_v54 : Ref sig .tc := ⟨.hbm, 77, rfl⟩
abbrev main_v55 : Ref sig .tc := ⟨.hbm, 78, rfl⟩
abbrev main_c_13 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_14 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S100000x128.size a
  hwx3_2 : ∀ i : grid3.Coords, EltTy.bits .f32 = 32 ∨ (Rect.block (s := S100000x128) S10000x128.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v37) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v50) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v52) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v52) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v53) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v66) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v67) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v68) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x1 : Shape := ⟨2, ![100000, 1]⟩

abbrev nBuf : Space → Nat
  | .hbm => 154
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S100000, .i32⟩
  | 7 => ⟨S1x1600000, .i32⟩
  | 8 => ⟨S1600000, .i32⟩
  | 9 => ⟨S1700000, .i32⟩
  | 10 => ⟨S1x1600000, .i32⟩
  | 11 => ⟨S1600000, .i32⟩
  | 12 => ⟨S1700000, .i32⟩
  | 13 => ⟨S100000x128, .f32⟩
  | 14 => ⟨S_, .f32⟩
  | 15 => ⟨S100000, .f32⟩
  | 16 => ⟨S_, .i32⟩
  | 17 => ⟨S1700000, .i32⟩
  | 18 => ⟨S1700000, .i1⟩
  | 19 => ⟨S_, .i32⟩
  | 20 => ⟨S1700000, .i32⟩
  | 21 => ⟨S1700000, .i32⟩
  | 22 => ⟨S1700000, .i32⟩
  | 23 => ⟨S1700000x1, .i32⟩
  | 24 => ⟨S_, .f32⟩
  | 25 => ⟨S1700000, .f32⟩
  | 26 => ⟨S100000, .f32⟩
  | 27 => ⟨S_, .f32⟩
  | 28 => ⟨S100000, .f32⟩
  | 29 => ⟨S100000, .i1⟩
  | 30 => ⟨S_, .f32⟩
  | 31 => ⟨S100000, .f32⟩
  | 32 => ⟨S100000, .f32⟩
  | 33 => ⟨S100000, .f32⟩
  | 34 => ⟨S_, .f32⟩
  | 35 => ⟨S_, .f32⟩
  | 36 => ⟨S100000, .f32⟩
  | 37 => ⟨S100000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000, .f32⟩
  | 56 => ⟨S1700000, .f32⟩
  | 57 => ⟨S_, .i32⟩
  | 58 => ⟨S1700000, .i32⟩
  | 59 => ⟨S1700000, .i1⟩
  | 60 => ⟨S_, .i32⟩
  | 61 => ⟨S1700000, .i32⟩
  | 62 => ⟨S1700000, .i32⟩
  | 63 => ⟨S1700000, .i32⟩
  | 64 => ⟨S1700000x1, .i32⟩
  | 65 => ⟨S1700000x128, .f32⟩
  | 66 => ⟨S1700000x1, .f32⟩
  | 67 => ⟨S1700000x128, .f32⟩
  | 68 => ⟨S1700000x128, .f32⟩
  | 69 => ⟨S_, .f32⟩
  | 70 => ⟨S100000x128, .f32⟩
  | 71 => ⟨S1700000x1, .i32⟩
  | 72 => ⟨S100000x128, .f32⟩
  | 73 => ⟨S1x128, .f32⟩
  | 74 => ⟨S100000x128, .f32⟩
  | 75 => ⟨S100000x128, .f32⟩
  | 76 => ⟨S_, .f32⟩
  | 77 => ⟨S100000x128, .f32⟩
  | 78 => ⟨S100000x128, .f32⟩
  | 79 => ⟨S100000x128, .f32⟩
  | 80 => ⟨S_, .f32⟩
  | 81 => ⟨S100000, .f32⟩
  | 82 => ⟨S_, .i32⟩
  | 83 => ⟨S1700000, .i32⟩
  | 84 => ⟨S1700000, .i1⟩
  | 85 => ⟨S_, .i32⟩
  | 86 => ⟨S1700000, .i32⟩
  | 87 => ⟨S1700000, .i32⟩
  | 88 => ⟨S1700000, .i32⟩
  | 89 => ⟨S1700000x1, .i32⟩
  | 90 => ⟨S_, .f32⟩
  | 91 => ⟨S1700000, .f32⟩
  | 92 => ⟨S100000, .f32⟩
  | 93 => ⟨S_, .f32⟩
  | 94 => ⟨S100000, .f32⟩
  | 95 => ⟨S100000, .i1⟩
  | 96 => ⟨S_, .f32⟩
  | 97 => ⟨S100000, .f32⟩
  | 98 => ⟨S100000, .f32⟩
  | 99 => ⟨S100000, .f32⟩
  | 100 => ⟨S_, .f32⟩
  | 101 => ⟨S_, .f32⟩
  | 102 => ⟨S100000, .f32⟩
  | 103 => ⟨S100000, .f32⟩
  | 104 => ⟨S_, .i32⟩
  | 105 => ⟨S1700000, .i32⟩
  | 106 => ⟨S1700000, .i1⟩
  | 107 => ⟨S_, .i32⟩
  | 108 => ⟨S1700000, .i32⟩
  | 109 => ⟨S1700000, .i32⟩
  | 110 => ⟨S1700000, .i32⟩
  | 111 => ⟨S1700000x1, .i32⟩
  | 112 => ⟨S1700000, .f32⟩
  | 113 => ⟨S_, .i32⟩
  | 114 => ⟨S1700000, .i32⟩
  | 115 => ⟨S1700000, .i1⟩
  | 116 => ⟨S_, .i32⟩
  | 117 => ⟨S1700000, .i32⟩
  | 118 => ⟨S1700000, .i32⟩
  | 119 => ⟨S1700000, .i32⟩
  | 120 => ⟨S1700000x1, .i32⟩
  | 121 => ⟨S1700000, .f32⟩
  | 122 => ⟨S1700000, .f32⟩
  | 123 => ⟨S_, .i32⟩
  | 124 => ⟨S1700000, .i32⟩
  | 125 => ⟨S1700000, .i1⟩
  | 126 => ⟨S_, .i32⟩
  | 127 => ⟨S1700000, .i32⟩
  | _ => ⟨S100000x128, .f32⟩

abbrev hbmTy0_1 (i : Nat) : BufTy := match i % 128 with
  | 0 => ⟨S1700000, .i32⟩
  | 1 => ⟨S1700000, .i32⟩
  | 2 => ⟨S1700000x1, .i32⟩
  | 3 => ⟨S1700000x128, .f32⟩
  | 4 => ⟨S1700000x1, .f32⟩
  | 5 => ⟨S1700000x128, .f32⟩
  | 6 => ⟨S1700000x128, .f32⟩
  | 7 => ⟨S_, .f32⟩
  | 8 => ⟨S100000x128, .f32⟩
  | 9 => ⟨S1700000x1, .i32⟩
  | 10 => ⟨S100000x128, .f32⟩
  | 11 => ⟨S1x128, .f32⟩
  | 12 => ⟨S100000x128, .f32⟩
  | 13 => ⟨S100000x128, .f32⟩
  | 14 => ⟨S_, .f32⟩
  | 15 => ⟨S100000x128, .f32⟩
  | 16 => ⟨S100000x128, .f32⟩
  | 17 => ⟨S_, .f32⟩
  | 18 => ⟨S100000x1, .f32⟩
  | 19 => ⟨S100000, .i32⟩
  | 20 => ⟨S_, .f32⟩
  | 21 => ⟨S100000x128, .f32⟩
  | 22 => ⟨S100000x1, .i32⟩
  | 23 => ⟨S100000x128, .f32⟩
  | 24 => ⟨S100000x128, .f32⟩
  | 25 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_call0_v0 : Ref sig .tc := ⟨.hbm, 35, rfl⟩
abbrev main_call0_v1 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_7 : Ref sig .tc := ⟨.hbm, 47, rfl⟩
abbrev main_v30 : Ref sig .tc := ⟨.hbm, 48, rfl⟩
abbrev main_v31 : Ref sig .tc := ⟨.hbm, 49, rfl⟩
abbrev main_c_8 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_9 : Ref sig .tc := ⟨.hbm, 57, rfl⟩
abbrev main_v38 : Ref sig .tc := ⟨.hbm, 58, rfl⟩
abbrev main_v39 : Ref sig .tc := ⟨.hbm, 59, rfl⟩
abbrev main_c_10 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_11 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_call1_cst : Ref sig .tc := ⟨.hbm, 76, rfl⟩
abbrev main_call1_v0 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_v56 : Ref sig .tc := ⟨.hbm, 81, rfl⟩
abbrev main_c_13 : Ref sig .tc := ⟨.hbm, 82, rfl⟩
abbrev main_v57 : Ref sig .tc := ⟨.hbm, 83, rfl⟩
abbrev main_v58 : Ref sig .tc := ⟨.hbm, 84, rfl⟩
abbrev main_c_14 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_15 : Ref sig .tc := ⟨.hbm, 90, rfl⟩
abbrev main_v63 : Ref sig .tc := ⟨.hbm, 91, rfl⟩
abbrev main_v64 : Ref sig .tc := ⟨.hbm, 92, rfl⟩
abbrev main_cst_16 : Ref sig .tc := ⟨.hbm, 93, rfl⟩
abbrev main_v65 : Ref sig .tc := ⟨.hbm, 94, rfl⟩
abbrev main_v66 : Ref sig .tc := ⟨.hbm, 95, rfl⟩
abbrev main_cst_17 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_18 : Ref sig .tc := ⟨.hbm, 100, rfl⟩
abbrev main_call2_v0 : Ref sig .tc := ⟨.hbm, 101, rfl⟩
abbrev main_call2_v1 : Ref sig .tc := ⟨.hbm, 102, rfl⟩
abbrev main_v70 : Ref sig .tc := ⟨.hbm, 103, rfl⟩
abbrev main_c_19 : Ref sig .tc := ⟨.hbm, 104, rfl⟩
abbrev main_v71 : Ref sig .tc := ⟨.hbm, 105, rfl⟩
abbrev main_v72 : Ref sig .tc := ⟨.hbm, 106, rfl⟩
abbrev main_c_20 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_c_21 : Ref sig .tc := ⟨.hbm, 113, rfl⟩
abbrev main_v78 : Ref sig .tc := ⟨.hbm, 114, rfl⟩
abbrev main_v79 : Ref sig .tc := ⟨.hbm, 115, rfl⟩
abbrev main_c_22 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_c_23 : Ref sig .tc := ⟨.hbm, 123, rfl⟩
abbrev main_v86 : Ref sig .tc := ⟨.hbm, 124, rfl⟩
abbrev main_v87 : Ref sig .tc := ⟨.hbm, 125, rfl⟩
abbrev main_c_24 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_cst_25 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_call3_cst : Ref sig .tc := ⟨.hbm, 142, rfl⟩
abbrev main_call3_v0 : Ref sig .tc := ⟨.hbm, 143, rfl⟩
abbrev main_v102 : Ref sig .tc := ⟨.hbm, 144, rfl⟩
abbrev main_cst_26 : Ref sig .tc := ⟨.hbm, 145, rfl⟩
abbrev main_v103 : Ref sig .tc := ⟨.hbm, 146, rfl⟩
abbrev main_v104 : Ref sig .tc := ⟨.hbm, 147, rfl⟩
abbrev main_cst_27 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x1 : S_.BroadcastsInDim S100000x1 (![] : Fin 0 → Fin S100000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S100000x128_S100000x1_S100000x128_1_0_0_1_wf : ScatterDims.WF S100000x128 S100000x1 S100000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S100000x128_S100000x1_S100000x128_1_0_0_1 : ScatterDims S100000x128 S100000x1 S100000x128 where
  updateWindowDims := [1]
  insertedWindowDims := [0]
  scatterDimsToOperandDims := [0]
  indexVectorDim := 1
  wf := scatter_S100000x128_S100000x1_S100000x128_1_0_0_1_wf

class Facts : Prop extends Facts₀ where

variable [Facts]
-- ==== Proof.LibScatterRows.lean ====
/-
  A general lemma about the host's accumulating scatter of ROWS (jnp's `x.at[idx].add(u)`, `segment_sum`), at the ideal
  instance, for any extents n and m.

  An [n × m] array of updates is scattered into an [n × m] operand along axis 0, update row p going to the operand row
  that entry (p, 0) of an [n × 1] column of 32-bit indices names (the printed dimension numbers: the update's axis 1 is
  its window axis, the operand's axis 0 is inserted and is the one the index names, the index vector lies on axis 1).

  * `rows_resultIdx`: if the column holds p at position p (read signed), update entry j lands on operand entry j.
  * `scatterAdd_rows_identity`: then the scatter-add is entrywise addition, x + u: every operand entry meets exactly
    one update, its own.
  * `iota_column`: the column [n] → [n × 1] of `iota` is such a column when n ≤ 2^31 (the words do not wrap).
  So a `segment_sum` whose segment ids are `arange(n)` into a zero operand is the identity on its data.
-/
import Idealize.ShloMosaic.Lib.StableHlo.Predicate
import Idealize.ShloMosaic.PureOps.Ideal.Laws

noncomputable section

namespace Idealize.ShloMosaic.ScatterRows

open Idealize.ShloMosaic Idealize.ShloMosaic.StableHlo.Predicate

/-- With the identity column of indices, update entry `j` lands on operand entry `j`: on axis 0 the start is the
    index word at row `j 0` and the window coordinate is zero; on axis 1 the start is zero and the window coordinate is
    `j 1`. -/
theorem rows_resultIdx {n m : Nat} (d : ScatterDims ⟨2, ![n, m]⟩ ⟨2, ![n, 1]⟩ ⟨2, ![n, m]⟩)
    (huw : d.updateWindowDims = [1]) (hiw : d.insertedWindowDims = [0]) (hsd : d.scatterDimsToOperandDims = [0])
    (hivd : d.indexVectorDim = 1) (idx : IVec ⟨2, ![n, 1]⟩ 32) (hidx : ∀ p : Fin n, (idx (ixP p)).toInt = p.val)
    (j : (⟨2, ![n, m]⟩ : Shape).Idx) : d.resultIdx? j idx = some j := by
  obtain ⟨uw, iw, sd, iv, wf⟩ := d
  simp only at huw hiw hsd hivd
  subst huw hiw hsd hivd
  generalize hd : (⟨[1], [0], [0], 1, wf⟩ : ScatterDims ⟨2, ![n, m]⟩ ⟨2, ![n, 1]⟩ ⟨2, ![n, m]⟩) = d
  have hj0 : (j 0).val < n := (j 0).isLt
  have hj1 : (j 1).val < m := (j 1).isLt
  have s0 : d.start j idx 0 = ((j 0).val : Int) := by
    subst hd
    unfold ScatterDims.start
    rw [dif_pos (List.mem_singleton.mpr rfl)]
    have e : (⟨[1], [0], [0], 1, wf⟩ : ScatterDims ⟨2, ![n, m]⟩ ⟨2, ![n, 1]⟩ ⟨2, ![n, m]⟩).siIdx j
        ⟨List.idxOf (0 : Fin 2) [0], List.idxOf_lt_length_iff.2 (List.mem_singleton.mpr rfl)⟩ = ixP (⟨(j 0).val, hj0⟩ : Fin n) := by
      funext b
      match b with
      | ⟨0, _⟩ =>
        unfold ScatterDims.siIdx
        rw [dif_neg (by show ¬ (0 : Nat) = 1; omega)]
        unfold ScatterDims.siCoord
        apply Fin.ext
        rfl
      | ⟨1, _⟩ =>
        unfold ScatterDims.siIdx
        rw [dif_pos rfl]
        apply Fin.ext
        rfl
    rw [e, hidx]
  have s1 : d.start j idx 1 = 0 := by
    subst hd
    unfold ScatterDims.start
    rw [dif_neg (by show (1 : Fin 2) ∉ [(0 : Fin 2)]; decide)]
  have w0 : d.window j 0 = 0 := by
    subst hd
    unfold ScatterDims.window
    rw [dif_neg (by simp [ScatterDims.sKept, Shape.kept, List.mem_filter, List.mem_finRange])]
  have w1 : d.window j 1 = (j 1).val := by
    subst hd
    unfold ScatterDims.window
    rw [dif_pos (by simp [ScatterDims.sKept, Shape.kept, List.mem_filter, List.mem_finRange])]
    rfl
  unfold ScatterDims.resultIdx?
  have h : ∀ a, 0 ≤ d.start j idx a + d.window j a ∧ d.start j idx a + d.window j a < (⟨2, ![n, m]⟩ : Shape).size a := by
    intro a
    match a with
    | ⟨0, _⟩ => show 0 ≤ d.start j idx 0 + d.window j 0 ∧ d.start j idx 0 + (d.window j 0 : Int) < (n : Int); rw [s0, w0]; omega
    | ⟨1, _⟩ => show 0 ≤ d.start j idx 1 + d.window j 1 ∧ d.start j idx 1 + (d.window j 1 : Int) < (m : Int); rw [s1, w1]; omega
  rw [dif_pos h]
  congr 1
  funext a
  apply Fin.ext
  match a with
  | ⟨0, _⟩ => show (d.start j idx 0 + (d.window j 0 : Int)).toNat = (j 0).val; rw [s0, w0]; omega
  | ⟨1, _⟩ => show (d.start j idx 1 + (d.window j 1 : Int)).toNat = (j 1).val; rw [s1, w1]; omega

/-- The accumulating scatter of rows at the identity column of indices is entrywise addition: each operand entry
    meets exactly one update, the one at its own position. -/
theorem scatterAdd_rows_identity {n m : Nat} {φ : FTy} (d : ScatterDims ⟨2, ![n, m]⟩ ⟨2, ![n, 1]⟩ ⟨2, ![n, m]⟩)
    (huw : d.updateWindowDims = [1]) (hiw : d.insertedWindowDims = [0]) (hsd : d.scatterDimsToOperandDims = [0])
    (hivd : d.indexVectorDim = 1) (idx : IVec ⟨2, ![n, 1]⟩ 32) (hidx : ∀ p : Fin n, (idx (ixP p)).toInt = p.val)
    (x u : FVec Ideal ⟨2, ![n, m]⟩ φ) (i : (⟨2, ![n, m]⟩ : Shape).Idx) :
    Host.scatterAdd (F := Ideal) d x idx u i = x i + u i := by
  show x i + ∑ j ∈ Finset.univ.filter (fun j => d.resultIdx? j idx = some i), u j = x i + u i
  have hset : (Finset.univ.filter fun j => d.resultIdx? j idx = some i) = {i} := by
    ext j
    simp only [Finset.mem_filter, Finset.mem_univ, true_and, Finset.mem_singleton]
    rw [rows_resultIdx d huw hiw hsd hivd idx hidx j]
    exact Option.some_inj
  rw [hset, Finset.sum_singleton]

/-- The column of `iota` holds p at position p, read signed, as long as the words do not wrap. -/
theorem iota_column {n : Nat} (hn : n ≤ 2 ^ 31) (h₁ : (⟨1, ![n]⟩ : Shape).BroadcastsInDim ⟨2, ![n, 1]⟩ ![0]) (p : Fin n) :
    (broadcastInDim ⟨2, ![n, 1]⟩ ![0] h₁ (iotaInDim (⟨1, ![n]⟩ : Shape) 32 0) (ixP p)).toInt = p.val := by
  rw [bcast_col1 h₁ _ p, iota_apply p]
  exact toInt_ofNat_small p.val (by have := p.isLt; omega)

end Idealize.ShloMosaic.ScatterRows

end
-- ==== Proof.Consts.lean ====
/-
  The float constants of the two programs as extended reals, and the one law about them the certificate uses:
  the pattern 0x3F800000 denotes 1, and a quotient by 1 is its numerator, on every extended real (±∞ included:
  x / 1 is x · 1⁻¹ = x).
-/
import Idealize.ShloMosaic.PureOps.Ideal.Laws

noncomputable section

namespace Cert.Consts

open Idealize.ShloMosaic

/-- `1.0` denotes 1. -/
theorem ofBits_one : Ideal.ofBits .f32 0x3F800000#32 = 1 := by
  simp [Ideal.ofBits, Ideal.ieee, -EReal.coe_mul]; norm_num

/-- A quotient by one is its numerator, for every extended real. -/
theorem div_one (x : EReal) : Ideal.div x 1 = x := by
  rw [← EReal.coe_one, Ideal.div_coe one_ne_zero x]
  norm_num

/-- The host's quotient by the constant `1.0`. -/
theorem hostDivf_one (x : Ideal .f32) : FloatOps.hostDivf x (FloatOps.ofBits (F := Ideal) .f32 0x3F800000#32) = x := by
  rw [Ideal.hostDivf_def, Ideal.ofBits_def, ofBits_one]
  exact div_one x

/-- Zero plus anything, with the zero spelt as the pattern `+0.0`. -/
theorem zero_addf (x : Ideal .f32) : (FloatOps.ofBits (F := Ideal) .f32 0x00000000#32 : EReal) + x = x := by
  rw [Ideal.ofBits_def, Ideal.ofBits_zero_f32, zero_add]

end Cert.Consts

end
-- ==== Proof.RefTail.lean ====
/-
  Two facts about the reference program alone.

  `norm_same`: the reference computes the edge normalisation twice, once per layer, from the same edge list by the same
  operations; the two results are one function of the edge list.

  `pooled_eq`: the reference ends with a mean pool in which every node is its own graph: a segment sum whose segment
  ids are 0, 1, …, n − 1, into zeros, divided by a count of one. At the ideal instance each output entry is
  0 + h(r, q), divided by 1: the second layer's output itself (the scatter of rows at the identity column of indices is
  entrywise addition, and a quotient by one is its numerator on every extended real).
-/
import proofs.«114214_j25881472926277_1_alg».proof.Proof.RefRead
import proofs.«114214_j25881472926277_1_alg».proof.Proof.LibScatterRows
import proofs.«114214_j25881472926277_1_alg».proof.Proof.Consts

noncomputable section

namespace Cert.ReferenceIdeal.Tail

open Cert.ReferenceIdeal Cert.ReferenceIdeal.Gen Cert.ReferenceIdeal.ReadP Idealize.ShloMosaic Idealize.ShloMosaic.TcCoe

/-- The second layer's edge normalisation is the first layer's: the same operations on the same edge list. -/
theorem norm_same {F : FTy → Type} [FloatOps F] (x1 : (⟨S2x1600000, .i32⟩ : BufTy).Contents (Elt F)) :
    val_main_v85 (F := F) x1 = val_main_v37 (F := F) x1 := rfl

/-- The closing mean pool over one-node graphs is the identity on the second layer's output. -/
theorem pooled_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    val_main_v109 (F := Ideal) x0 x1 x2 x3 x4 x5 = val_main_v102 (F := Ideal) x0 x1 x2 x3 x4 x5 := by
  funext i
  rw [val_main_v109_apply, val_main_v108_apply, val_main_v103_apply, val_main_cst_26_apply, Cert.Consts.hostDivf_one]
  have hs : val_main_v107 (F := Ideal) x0 x1 x2 x3 x4 x5 i
      = val_main_v105 (F := Ideal) i + val_main_v102 (F := Ideal) x0 x1 x2 x3 x4 x5 i := by
    unfold val_main_v107
    exact ScatterRows.scatterAdd_rows_identity scatter_S100000x128_S100000x1_S100000x128_1_0_0_1 rfl rfl rfl rfl
      (val_main_v106 (F := Ideal)) (fun p => ScatterRows.iota_column (by norm_num) bcast_S100000_S100000x1_0 p)
      (val_main_v105 (F := Ideal)) (val_main_v102 (F := Ideal) x0 x1 x2 x3 x4 x5) i
  rw [hs, val_main_v105_apply, val_main_cst_27_apply]
  exact Cert.Consts.zero_addf _

end Cert.ReferenceIdeal.Tail

end
-- ==== Proof.KPay.lean ====
/-
  The two kernel bodies of the program, read at an index of the stored block, at the ideal instance
  (floats are extended reals, a change of float format is the identity).

  The projection kernel stores the matrix product of its row block with the weights: the bf16 casts of both
  operands do nothing, the accumulator starts at zero, so entry (p, q) of the block is the sum over k of
  x(p, k) · w(k, q).

  The bias kernel stores, at (p, q), the larger of a(p, q) + b(0, q) and zero: the bias row is broadcast down
  the rows of the block.

  Both bodies occur twice (the two layers); the second projection kernel differs from the first only by a
  shape cast of its row block to its own shape.
-/
import proofs.«114214_j25881472926277_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.TcCoe

/-! ## The block product's operand indices -/

/-- The left operand's row coordinate is the result's. -/
theorem lhs_row (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- The left operand's column coordinate is the contracted one. -/
theorem lhs_contr (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
/-- The right operand's row coordinate is the contracted one. -/
theorem rhs_contr (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
/-- The right operand's column coordinate is the result's. -/
theorem rhs_col (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- Entry `k` of the row of the block that entry `i` of the product reads. -/
abbrev rowAt (i : S10000x128.Idx) (k : Fin 128) : S10000x128.Idx := fun a => match a with
  | ⟨0, _⟩ => ⟨(i 0).val, (i 0).isLt⟩
  | ⟨1, _⟩ => ⟨k.val, k.isLt⟩
/-- Entry `k` of the column of the weights that entry `i` of the product reads. -/
abbrev colAt (i : S10000x128.Idx) (k : Fin 128) : S128x128.Idx := fun a => match a with
  | ⟨0, _⟩ => ⟨k.val, k.isLt⟩
  | ⟨1, _⟩ => ⟨(i 1).val, (i 1).isLt⟩

/-- The matrix unit's product into a zero accumulator, of operands narrowed to bf16, at an entry: the plain sum
    of products over the contracted axis. -/
theorem product_apply (x : FVec Ideal S10000x128 .f32) (w : FVec Ideal S128x128 .f32) (i : S10000x128.Idx) :
    matmul dot_S10000x128_S128x128_S10000x128_1_0_0_1_n_n none (truncf .bf16 x bitsLt_bf16_f32) (truncf .bf16 w bitsLt_bf16_f32)
        (constant S10000x128 .f32 0x00000000#32) i
      = ∑ k : Fin 128, x (rowAt i k) * w (colAt i k) := by
  show FloatOps.matmul _ _ _ _ _ i = _
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx i ((ValueIdx.contrEquiv1 dot_S10000x128_S128x128_S10000x128_1_0_0_1_n_n 128 rfl rfl).symm k) = rowAt i k := funext fun a => Fin.ext (by
    match a with
    | ⟨0, _⟩ => exact lhs_row _ _
    | ⟨1, _⟩ => exact (lhs_contr _ _).trans hk)
  have er : dot_S10000x128_S128x128_S10000x128_1_0_0_1_n_n.rhsIdx i ((ValueIdx.contrEquiv1 dot_S10000x128_S128x128_S10000x128_1_0_0_1_n_n 128 rfl rfl).symm k) = colAt i k := funext fun a => Fin.ext (by
    match a with
    | ⟨0, _⟩ => exact (rhs_contr _ _).trans hk
    | ⟨1, _⟩ => exact rhs_col _ _)
  rw [el, er]
  rfl

/-! ## The four bodies -/

/-- The first layer's projection block. -/
theorem linear0_apply (v0 : Vec Ideal S10000x128 .f32) (v2 : Vec Ideal S128x128 .f32) (i : S10000x128.Idx) :
    k0_pay1 (F := Ideal) v0 v2 i = ∑ k : Fin 128, v0 (rowAt i k) * v2 (colAt i k) := by
  unfold k0_pay1
  exact product_apply v0 v2 i

/-- The second layer's projection block: the same product, the row block first cast to its own shape. -/
theorem linear2_apply (v0 : Vec Ideal S10000x128 .f32) (v3 : Vec Ideal S128x128 .f32) (i : S10000x128.Idx) :
    k2_pay1 (F := Ideal) v0 v3 i = ∑ k : Fin 128, v0 (rowAt i k) * v3 (colAt i k) := by
  unfold k2_pay1
  rw [shapeCast_self]
  exact product_apply v0 v3 i

/-- The entry of the bias row that entry `i` of the block adds. -/
abbrev biasAt (i : S10000x128.Idx) : S1x128.Idx := fun a => match a with
  | ⟨0, _⟩ => ⟨0, Nat.one_pos⟩
  | ⟨1, _⟩ => ⟨(i 1).val, (i 1).isLt⟩

/-- Bias and rectifier on vectors, at an entry. -/
theorem rectified_apply (a : FVec Ideal S10000x128 .f32) (b : FVec Ideal S1x128 .f32) (i : S10000x128.Idx) :
    maximumf (addf (shapeCast S10000x128 a shapeCasts_S10000x128_S10000x128)
        (broadcastTo S10000x128 (shapeCast S1x128 b shapeCasts_S1x128_S1x128) broadcasts_S1x128_S10000x128))
        (broadcast S10000x128 (FloatOps.ofBits (F := Ideal) .f32 0x00000000#32)) i
      = FloatOps.maximumf (FloatOps.addf (a i) (b (biasAt i))) (FloatOps.ofBits (F := Ideal) .f32 0x00000000#32) := by
  rw [shapeCast_self, shapeCast_self]
  show FloatOps.maximumf (FloatOps.addf (a i) (broadcastTo S10000x128 b broadcasts_S1x128_S10000x128 i)) _ = _
  rw [broadcastTo_apply b broadcasts_S1x128_S10000x128 i (biasAt i) (fun c => match c with
    | ⟨0, _⟩ => by show 0 = if (1 : Nat) = 1 then 0 else _; rw [if_pos rfl]
    | ⟨1, _⟩ => by show (i 1).val = if (128 : Nat) = 1 then 0 else (i 1).val; rw [if_neg (by decide)])]
  rfl

/-- The first layer's bias block. -/
theorem bias1_apply (v0 : Vec Ideal S10000x128 .f32) (v2 : Vec Ideal S1x128 .f32) (i : S10000x128.Idx) :
    k1_pay1 (F := Ideal) v0 v2 i
      = FloatOps.maximumf (FloatOps.addf (v0 i) (v2 (biasAt i))) (FloatOps.ofBits (F := Ideal) .f32 0x00000000#32) := by
  unfold k1_pay1
  exact rectified_apply v0 v2 i

/-- The second layer's bias block. -/
theorem bias3_apply (v0 : Vec Ideal S10000x128 .f32) (v2 : Vec Ideal S1x128 .f32) (i : S10000x128.Idx) :
    k3_pay1 (F := Ideal) v0 v2 i
      = FloatOps.maximumf (FloatOps.addf (v0 i) (v2 (biasAt i))) (FloatOps.ofBits (F := Ideal) .f32 0x00000000#32) := by
  unfold k3_pay1
  exact rectified_apply v0 v2 i

/-! ## The two calls' whole-array functions

What a call leaves in its result array is ONE function of the contents of its operand arrays, stated here over the
whole 100000 × 128 arrays; the modules about the four calls show that every grid point writes back its block of it. -/

/-- Entry `k` of row `i 0` of the left matrix. -/
abbrev rowOf (i : S100000x128.Idx) (k : Fin 128) : S100000x128.Idx := fun a => match a with
  | ⟨0, _⟩ => ⟨(i 0).val, (i 0).isLt⟩
  | ⟨1, _⟩ => ⟨k.val, k.isLt⟩
/-- Entry `k` of column `i 1` of the right matrix. -/
abbrev colOf (i : S100000x128.Idx) (k : Fin 128) : S128x128.Idx := fun a => match a with
  | ⟨0, _⟩ => ⟨k.val, k.isLt⟩
  | ⟨1, _⟩ => ⟨(i 1).val, (i 1).isLt⟩

/-- The matrix product of a 100000 × 128 array with a 128 × 128 one, entry by entry, over the extended reals. -/
def product (x : FVec Ideal S100000x128 .f32) (w : FVec Ideal S128x128 .f32) : FVec Ideal S100000x128 .f32 :=
  fun i => ∑ k : Fin 128, x (rowOf i k) * w (colOf i k)

/-- The entry of the 1 × 128 bias row that entry `i` of the array adds. -/
abbrev biasOf (i : S100000x128.Idx) : S1x128.Idx := fun a => match a with
  | ⟨0, _⟩ => ⟨0, Nat.one_pos⟩
  | ⟨1, _⟩ => ⟨(i 1).val, (i 1).isLt⟩

/-- Bias then rectifier, entry by entry: the larger of a(r, q) + b(0, q) and zero. -/
def rectified (a : FVec Ideal S100000x128 .f32) (b : FVec Ideal S1x128 .f32) : FVec Ideal S100000x128 .f32 :=
  fun i => FloatOps.maximumf (FloatOps.addf (a i) (b (biasOf i))) (FloatOps.ofBits (F := Ideal) .f32 0x00000000#32)

/-- The offsets of every access of the four bodies: the whole staging buffer. -/
theorem zero_offsets : (![0, 0] : Fin 2 → Nat) = fun _ => 0 := funext fun a => by fin_cases a <;> rfl

end Cert.KernelIdeal.Pay

end
-- ==== Proof.KBlock0.lean ====
/-
  The first projection call as a whole: after its ten grid points the result array holds, at (r, q), the sum over k
  of x(r, k) · w(k, q), where x and w are the contents of the call's two operand arrays when the call is entered.

  Point t reads rows [10000 t, 10000 t + 10000) of x and all of w and writes the same rows of the result, so what it
  writes back is that block of the one whole-array product; the ten blocks tile the 100000 rows (row r is in block
  r / 10000), so the array ends at the product.
-/
import proofs.«114214_j25881472926277_1_alg».proof.Proof.Gen.KernelIdeal.Frame
import proofs.«114214_j25881472926277_1_alg».proof.Proof.KPay

set_option maxRecDepth 16384

noncomputable section

namespace Cert.KernelIdeal.Whole

open Cert.KernelIdeal Cert.KernelIdeal.Gen Idealize.ShloMosaic Idealize.ShloMosaic.TcCoe Idealize.SL.Sem
open Idealize.ShloMosaic.Pipeline (Dat)
open Cert.KernelIdeal.Pay (product rowOf colOf zero_offsets)

section Call0

variable (V : (c : Dev nD) → (b : Ref sig .tc) → Buf (Elt Ideal) ((c : Thread nD τ).loc b))

/-- The printed index maps over the grid: the row-block index of the left operand and of the result is the point,
    every other block index is zero. -/
theorem index_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the operand arrays as the call finds them. -/
theorem flushed0 (c : Dev nD) (t : Fin cfg0.N) :
    (dat0 V c).flushed 2 t = ((cfg0.win 2).blk t).view.read (Elt Ideal) (product (V c main_arg0) (V c main_arg2)) := by
  show (cfg0.win 2).cut (grid0.coords t) ((dat0 V c).after 2 t) = _
  rw [after0_2]
  unfold out0_2
  rw [View.canon_unit_zero zero_offsets]
  simp only [View.ld_unit_zero (S := S10000x128) zero_offsets, View.ld_unit_zero (S := S128x128) zero_offsets]
  obtain ⟨e0, e1, e2, e3, e4, e5⟩ := index_facts0 t
  funext j
  refine (Pay.linear0_apply (iblk0 V c 0 t) (iblk0 V c 1 t) j).trans ?_
  have hx : ∀ k : Fin 128, ((cfg0.win 0).blk t).view.emb (Pay.rowAt j k) = rowOf (((cfg0.win 2).blk t).view.emb j) k := by
    intro k; funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  have hw : ∀ k : Fin 128, ((cfg0.win 1).blk t).view.emb (Pay.colAt j k) = colOf (((cfg0.win 2).blk t).view.emb j) k := by
    intro k; funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  -- the two arrays as vectors of their literal types: each block entry is the array's entry at the embedded index
  have key : ∀ (X : FVec Ideal S100000x128 .f32) (W : FVec Ideal S128x128 .f32),
      (∑ k : Fin 128, X (((cfg0.win 0).blk t).view.emb (Pay.rowAt j k)) * W (((cfg0.win 1).blk t).view.emb (Pay.colAt j k)))
        = product X W (((cfg0.win 2).blk t).view.emb j) := by
    intro X W
    unfold product
    exact Finset.sum_congr rfl fun k _ => by rw [hx k, hw k]
  exact key (V c main_arg0) (V c main_arg2)

/-- An index of the result array is in point `t`'s block iff each coordinate is in the block's range on its axis. -/
theorem mem_block0 (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v37).slice (win0_2.rect t)).set ↔ _
  rw [View.set_slice_whole, Rect.mem_set_unit]
  exact Iff.rfl

/-- Row `r` of the result is written by point `r / 10000`. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 10 := N_0
  let t : Fin cfg0.N := ⟨(i 0).val / 10000, by rw [hN]; omega⟩
  obtain ⟨e0, e1, e2, e3, e4, e5⟩ := index_facts0 t
  have e4' : win0_2.index t (0 : Fin 2) = (i 0).val / 10000 := e4
  refine ⟨t, flush0_2 t, ?_⟩
  rw [mem_block0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- After the call the result array is the product of the operand arrays as the call found them. -/
theorem final0 (c : Dev nD) : (dat0 V c).arrAt 2 cfg0.N = product (V c main_arg0) (V c main_arg2) :=
  (dat0 V c).arrAt_eq_of_cover 2 (product (V c main_arg0) (V c main_arg2)) (fun t _ => flushed0 V c t) cover0

end Call0

end Cert.KernelIdeal.Whole

end
-- ==== Proof.KBlock1.lean ====
/-
  The first bias call as a whole: after its ten grid points the result array holds, at (r, q), the larger of
  a(r, q) + b(0, q) and zero, where a is the aggregated array and b the 1 × 128 bias row as the call finds them.

  Point t reads rows [10000 t, 10000 t + 10000) of a and the whole bias row and writes the same rows of the result:
  its block of the one whole-array function; the ten blocks tile the 100000 rows.
-/
import proofs.«114214_j25881472926277_1_alg».proof.Proof.Gen.KernelIdeal.Frame
import proofs.«114214_j25881472926277_1_alg».proof.Proof.KPay

set_option maxRecDepth 16384

noncomputable section

namespace Cert.KernelIdeal.Whole

open Cert.KernelIdeal Cert.KernelIdeal.Gen Idealize.ShloMosaic Idealize.ShloMosaic.TcCoe Idealize.SL.Sem
open Idealize.ShloMosaic.Pipeline (Dat)
open Cert.KernelIdeal.Pay (rectified biasOf zero_offsets)

section Call1

variable (V : (c : Dev nD) → (b : Ref sig .tc) → Buf (Elt Ideal) ((c : Thread nD τ).loc b))

/-- The printed index maps over the grid: the row-block index of the aggregated array and of the result is the point,
    every other block index is zero. -/
theorem index_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the rectified sum of the operand arrays as the call finds them. -/
theorem flushed1 (c : Dev nD) (t : Fin cfg1.N) :
    (dat1 V c).flushed 2 t = ((cfg1.win 2).blk t).view.read (Elt Ideal) (rectified (V c main_v50) (V c main_v51)) := by
  show (cfg1.win 2).cut (grid1.coords t) ((dat1 V c).after 2 t) = _
  rw [after1_2]
  unfold out1_2
  rw [View.canon_unit_zero zero_offsets]
  simp only [View.ld_unit_zero (S := S10000x128) zero_offsets, View.ld_unit_zero (S := S1x128) zero_offsets]
  obtain ⟨e0, e1, e2, e3, e4, e5⟩ := index_facts1 t
  funext j
  refine (Pay.bias1_apply (iblk1 V c 0 t) (iblk1 V c 1 t) j).trans ?_
  show FloatOps.maximumf (FloatOps.addf (V c main_v50 (((cfg1.win 0).blk t).view.emb j)) (V c main_v51 (((cfg1.win 1).blk t).view.emb (Pay.biasAt j)))) (FloatOps.ofBits (F := Ideal) .f32 0x00000000#32)
    = FloatOps.maximumf (FloatOps.addf (V c main_v50 (((cfg1.win 2).blk t).view.emb j)) (V c main_v51 (biasOf (((cfg1.win 2).blk t).view.emb j)))) (FloatOps.ofBits (F := Ideal) .f32 0x00000000#32)
  have ha : ((cfg1.win 0).blk t).view.emb j = ((cfg1.win 2).blk t).view.emb j := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 128 + 1 * (j 1).val = win1_2.index t (1 : Fin 2) * 128 + 1 * (j 1).val; omega
  have hb : ((cfg1.win 1).blk t).view.emb (Pay.biasAt j) = biasOf (((cfg1.win 2).blk t).view.emb j) := by
    funext a; apply Fin.ext
    match a with
    | ⟨0, _⟩ => show win1_1.index t (0 : Fin 2) * 1 + 1 * 0 = 0; omega
    | ⟨1, _⟩ => show win1_1.index t (1 : Fin 2) * 128 + 1 * (j 1).val = win1_2.index t (1 : Fin 2) * 128 + 1 * (j 1).val; omega
  rw [ha, hb]

/-- An index of the result array is in point `t`'s block iff each coordinate is in the block's range on its axis. -/
theorem mem_block1 (t : Fin cfg1.N) (i : S100000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v52).slice (win1_2.rect t)).set ↔ _
  rw [View.set_slice_whole, Rect.mem_set_unit]
  exact Iff.rfl

/-- Row `r` of the result is written by point `r / 10000`. -/
theorem cover1 (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 10 := N_1
  let t : Fin cfg1.N := ⟨(i 0).val / 10000, by rw [hN]; omega⟩
  obtain ⟨e0, e1, e2, e3, e4, e5⟩ := index_facts1 t
  have e4' : win1_2.index t (0 : Fin 2) = (i 0).val / 10000 := e4
  refine ⟨t, flush1_2 t, ?_⟩
  rw [mem_block1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- After the call the result array is the rectified sum of the operand arrays as the call found them. -/
theorem final1 (c : Dev nD) : (dat1 V c).arrAt 2 cfg1.N = rectified (V c main_v50) (V c main_v51) :=
  (dat1 V c).arrAt_eq_of_cover 2 (rectified (V c main_v50) (V c main_v51)) (fun t _ => flushed1 V c t) cover1

end Call1

end Cert.KernelIdeal.Whole

end
-- ==== Proof.KBlock2.lean ====
/-
  The second projection call as a whole: after its ten grid points the result array holds, at (r, q), the sum over k
  of x(r, k) · w(k, q), where x and w are the contents of the call's two operand arrays when the call is entered.

  Point t reads rows [10000 t, 10000 t + 10000) of x and all of w and writes the same rows of the result, so what it
  writes back is that block of the one whole-array product; the ten blocks tile the 100000 rows (row r is in block
  r / 10000), so the array ends at the product.
-/
import proofs.«114214_j25881472926277_1_alg».proof.Proof.Gen.KernelIdeal.Frame
import proofs.«114214_j25881472926277_1_alg».proof.Proof.KPay

set_option maxRecDepth 16384

noncomputable section

namespace Cert.KernelIdeal.Whole

open Cert.KernelIdeal Cert.KernelIdeal.Gen Idealize.ShloMosaic Idealize.ShloMosaic.TcCoe Idealize.SL.Sem
open Idealize.ShloMosaic.Pipeline (Dat)
open Cert.KernelIdeal.Pay (product rowOf colOf zero_offsets)

section Call2

variable (V : (c : Dev nD) → (b : Ref sig .tc) → Buf (Elt Ideal) ((c : Thread nD τ).loc b))

/-- The printed index maps over the grid: the row-block index of the left operand and of the result is the point,
    every other block index is zero. -/
theorem index_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the product of the operand arrays as the call finds them. -/
theorem flushed2 (c : Dev nD) (t : Fin cfg2.N) :
    (dat2 V c).flushed 2 t = ((cfg2.win 2).blk t).view.read (Elt Ideal) (product (V c main_v52) (V c main_arg4)) := by
  show (cfg2.win 2).cut (grid2.coords t) ((dat2 V c).after 2 t) = _
  rw [after2_2]
  unfold out2_2
  rw [View.canon_unit_zero zero_offsets]
  simp only [View.ld_unit_zero (S := S10000x128) zero_offsets, View.ld_unit_zero (S := S128x128) zero_offsets]
  obtain ⟨e0, e1, e2, e3, e4, e5⟩ := index_facts2 t
  funext j
  refine (Pay.linear2_apply (iblk2 V c 0 t) (iblk2 V c 1 t) j).trans ?_
  have hx : ∀ k : Fin 128, ((cfg2.win 0).blk t).view.emb (Pay.rowAt j k) = rowOf (((cfg2.win 2).blk t).view.emb j) k := by
    intro k; funext a; apply Fin.ext
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 128 + 1 * k.val = k.val; omega
  have hw : ∀ k : Fin 128, ((cfg2.win 1).blk t).view.emb (Pay.colAt j k) = colOf (((cfg2.win 2).blk t).view.emb j) k := by
    intro k; funext a; apply Fin.ext
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega
  -- the two arrays as vectors of their literal types: each block entry is the array's entry at the embedded index
  have key : ∀ (X : FVec Ideal S100000x128 .f32) (W : FVec Ideal S128x128 .f32),
      (∑ k : Fin 128, X (((cfg2.win 0).blk t).view.emb (Pay.rowAt j k)) * W (((cfg2.win 1).blk t).view.emb (Pay.colAt j k)))
        = product X W (((cfg2.win 2).blk t).view.emb j) := by
    intro X W
    unfold product
    exact Finset.sum_congr rfl fun k _ => by rw [hx k, hw k]
  exact key (V c main_v52) (V c main_arg4)

/-- An index of the result array is in point `t`'s block iff each coordinate is in the block's range on its axis. -/
theorem mem_block2 (t : Fin cfg2.N) (i : S100000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_v53).slice (win2_2.rect t)).set ↔ _
  rw [View.set_slice_whole, Rect.mem_set_unit]
  exact Iff.rfl

/-- Row `r` of the result is written by point `r / 10000`. -/
theorem cover2 (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 10 := N_2
  let t : Fin cfg2.N := ⟨(i 0).val / 10000, by rw [hN]; omega⟩
  obtain ⟨e0, e1, e2, e3, e4, e5⟩ := index_facts2 t
  have e4' : win2_2.index t (0 : Fin 2) = (i 0).val / 10000 := e4
  refine ⟨t, flush2_2 t, ?_⟩
  rw [mem_block2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 128 ≤ (i 1).val ∧ (i 1).val < win2_2.index t (1 : Fin 2) * 128 + 128; omega

/-- After the call the result array is the product of the operand arrays as the call found them. -/
theorem final2 (c : Dev nD) : (dat2 V c).arrAt 2 cfg2.N = product (V c main_v52) (V c main_arg4) :=
  (dat2 V c).arrAt_eq_of_cover 2 (product (V c main_v52) (V c main_arg4)) (fun t _ => flushed2 V c t) cover2

end Call2

end Cert.KernelIdeal.Whole

end
-- ==== Proof.KBlock3.lean ====
/-
  The second bias call as a whole: after its ten grid points the result array holds, at (r, q), the larger of
  a(r, q) + b(0, q) and zero, where a is the aggregated array and b the 1 × 128 bias row as the call finds them.

  Point t reads rows [10000 t, 10000 t + 10000) of a and the whole bias row and writes the same rows of the result:
  its block of the one whole-array function; the ten blocks tile the 100000 rows.
-/
import proofs.«114214_j25881472926277_1_alg».proof.Proof.Gen.KernelIdeal.Frame
import proofs.«114214_j25881472926277_1_alg».proof.Proof.KPay

set_option maxRecDepth 16384

noncomputable section

namespace Cert.KernelIdeal.Whole

open Cert.KernelIdeal Cert.KernelIdeal.Gen Idealize.ShloMosaic Idealize.ShloMosaic.TcCoe Idealize.SL.Sem
open Idealize.ShloMosaic.Pipeline (Dat)
open Cert.KernelIdeal.Pay (rectified biasOf zero_offsets)

section Call3

variable (V : (c : Dev nD) → (b : Ref sig .tc) → Buf (Elt Ideal) ((c : Thread nD τ).loc b))

/-- The printed index maps over the grid: the row-block index of the aggregated array and of the result is the point,
    every other block index is zero. -/
theorem index_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the rectified sum of the operand arrays as the call finds them. -/
theorem flushed3 (c : Dev nD) (t : Fin cfg3.N) :
    (dat3 V c).flushed 2 t = ((cfg3.win 2).blk t).view.read (Elt Ideal) (rectified (V c main_v66) (V c main_v67)) := by
  show (cfg3.win 2).cut (grid3.coords t) ((dat3 V c).after 2 t) = _
  rw [after3_2]
  unfold out3_2
  rw [View.canon_unit_zero zero_offsets]
  simp only [View.ld_unit_zero (S := S10000x128) zero_offsets, View.ld_unit_zero (S := S1x128) zero_offsets]
  obtain ⟨e0, e1, e2, e3, e4, e5⟩ := index_facts3 t
  funext j
  refine (Pay.bias3_apply (iblk3 V c 0 t) (iblk3 V c 1 t) j).trans ?_
  show FloatOps.maximumf (FloatOps.addf (V c main_v66 (((cfg3.win 0).blk t).view.emb j)) (V c main_v67 (((cfg3.win 1).blk t).view.emb (Pay.biasAt j)))) (FloatOps.ofBits (F := Ideal) .f32 0x00000000#32)
    = FloatOps.maximumf (FloatOps.addf (V c main_v66 (((cfg3.win 2).blk t).view.emb j)) (V c main_v67 (biasOf (((cfg3.win 2).blk t).view.emb j)))) (FloatOps.ofBits (F := Ideal) .f32 0x00000000#32)
  have ha : ((cfg3.win 0).blk t).view.emb j = ((cfg3.win 2).blk t).view.emb j := by
    funext a; apply Fin.ext
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 128 + 1 * (j 1).val = win3_2.index t (1 : Fin 2) * 128 + 1 * (j 1).val; omega
  have hb : ((cfg3.win 1).blk t).view.emb (Pay.biasAt j) = biasOf (((cfg3.win 2).blk t).view.emb j) := by
    funext a; apply Fin.ext
    match a with
    | ⟨0, _⟩ => show win3_1.index t (0 : Fin 2) * 1 + 1 * 0 = 0; omega
    | ⟨1, _⟩ => show win3_1.index t (1 : Fin 2) * 128 + 1 * (j 1).val = win3_2.index t (1 : Fin 2) * 128 + 1 * (j 1).val; omega
  rw [ha, hb]

/-- An index of the result array is in point `t`'s block iff each coordinate is in the block's range on its axis. -/
theorem mem_block3 (t : Fin cfg3.N) (i : S100000x128.Idx) :
    i ∈ ((cfg3.win 2).blk t).view.set ↔ ∀ a : Fin 2, win3_2.index t a * S10000x128.size a ≤ (i a).val ∧ (i a).val < win3_2.index t a * S10000x128.size a + S10000x128.size a := by
  show i ∈ ((View.whole main_v68).slice (win3_2.rect t)).set ↔ _
  rw [View.set_slice_whole, Rect.mem_set_unit]
  exact Iff.rfl

/-- Row `r` of the result is written by point `r / 10000`. -/
theorem cover3 (i : S100000x128.Idx) : ∃ t : Fin cfg3.N, (cfg3.win 2).flush t = true ∧ i ∈ ((cfg3.win 2).blk t).view.set := by
  have hi0 : (i 0).val < 100000 := (i 0).isLt
  have hi1 : (i 1).val < 128 := (i 1).isLt
  have hN : cfg3.N = 10 := N_3
  let t : Fin cfg3.N := ⟨(i 0).val / 10000, by rw [hN]; omega⟩
  obtain ⟨e0, e1, e2, e3, e4, e5⟩ := index_facts3 t
  have e4' : win3_2.index t (0 : Fin 2) = (i 0).val / 10000 := e4
  refine ⟨t, flush3_2 t, ?_⟩
  rw [mem_block3]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 128 ≤ (i 1).val ∧ (i 1).val < win3_2.index t (1 : Fin 2) * 128 + 128; omega

/-- After the call the result array is the rectified sum of the operand arrays as the call found them. -/
theorem final3 (c : Dev nD) : (dat3 V c).arrAt 2 cfg3.N = rectified (V c main_v66) (V c main_v67) :=
  (dat3 V c).arrAt_eq_of_cover 2 (rectified (V c main_v66) (V c main_v67)) (fun t _ => flushed3 V c t) cover3

end Call3

end Cert.KernelIdeal.Whole

end
-- ==== Proof.Bridge.lean ====
/-
  The kernel program's result is the reference's second-layer output.

  The kernel program is: host operations (self-loops appended to the edge list, degrees, the edge normalisation),
  the first projection call, host operations (gather rows by source, scale by the normalisation, sum into destinations),
  the first bias call, the second projection call, the same host operations again, the second bias call. The reference
  does the same on the host, with `dot_general` for the projections and broadcast-add-maximum for the bias, computes the
  normalisation once per layer, and ends with a mean pool over one-node graphs.

  The memory between two items of the kernel program is followed here boundary by boundary, each buffer that matters
  stated as the reference's own stage function of the argument arrays:
    * the edge lists with self-loops and the normalisation, after the first host stretch;
    * the first projection's result: the block products tile the whole product, which is the reference's `dot_general`
      read as a sum (the bf16 casts are the identity on extended reals);
    * the aggregation: literally the reference's operations on equal operands;
    * the bias call's result: a(r, q) + b(q) against zero, the reference's broadcast, add and maximum read at an index;
    * the second layer likewise, the reference's second normalisation being the first.
  No law of the extended reals is used beyond reading both sides' operations at an index: the two programs perform
  the same arithmetic in the same order, entry by entry.
-/
import proofs.«114214_j25881472926277_1_alg».proof.Proof.Gen.KernelIdeal.Frame
import proofs.«114214_j25881472926277_1_alg».proof.Proof.KBlock0
import proofs.«114214_j25881472926277_1_alg».proof.Proof.KBlock1
import proofs.«114214_j25881472926277_1_alg».proof.Proof.KBlock2
import proofs.«114214_j25881472926277_1_alg».proof.Proof.KBlock3
import proofs.«114214_j25881472926277_1_alg».proof.Proof.RefRead
import proofs.«114214_j25881472926277_1_alg».proof.Proof.RefTail

set_option maxRecDepth 16384

noncomputable section

namespace Cert.Bridge

open Cert.KernelIdeal Cert.KernelIdeal.Gen Cert.KernelIdeal.Whole Cert.KernelIdeal.Pay
open Cert.ReferenceIdeal.ReadP
open Idealize.ShloMosaic Idealize.ShloMosaic.TcCoe Idealize.SL.Sem

/-- No operation of a host stretch writes the buffer in question. -/
local macro "unwritten" : tactic =>
  `(tactic| (refine List.forall_iff_forall_mem.mp ?_
             simp only [hostOps1, hostOps3, List.Forall, StableHlo.nullary_writes, StableHlo.unary_writes,
               StableHlo.binary_writes, StableHlo.ternary_writes, StableHlo.reshape_writes, Finset.mem_singleton]
             repeat' apply And.intro
             all_goals exact StableHlo.devRef_ne_of_ne (by decide)))

/-- Reads a buffer after host stretches: one simp pass over the operations' results, then the rewriting loop for what
    that pass leaves inside the operand list of a concatenate. -/
local macro "read_host" : tactic =>
  `(tactic| (after_results_simp
             repeat (first
               | rw [StableHlo.nullary_result] | rw [StableHlo.unary_result] | rw [StableHlo.binary_result]
               | rw [StableHlo.ternary_result] | rw [StableHlo.reshape_result]
               | (rw [StableHlo.nullary_result_ne]; rotate_left; decide)
               | (rw [StableHlo.unary_result_ne]; rotate_left; decide)
               | (rw [StableHlo.binary_result_ne]; rotate_left; decide)
               | (rw [StableHlo.ternary_result_ne]; rotate_left; decide)
               | (rw [StableHlo.reshape_result_ne]; rotate_left; decide))))

/-! ## The first host stretch, for any float values: the edge lists and the normalisation -/

section Entry

variable {F : FTy → Type} [FloatOps F]
variable (m : (ℓ : Loc nD τ sig) → Buf (Elt F) ℓ) (ρ : Dev nD → PrngReg)

/-- The source list with self-loops, at the first call's entry. -/
theorem src_entry (c : Dev nD) :
    W3 m ρ c (Proc.devRef .tc main_v3) = val_main_v3 (F := F) (m ((c.tc : Thread nD τ).loc main_arg1)) := by
  show StableHlo.after hostOps0_2 (StableHlo.after hostOps0_1 (StableHlo.after hostOps0 (W0 m ρ c))) (Proc.devRef .tc main_v3) = _
  simp only [hostOps0, hostOps0_1, hostOps0_2]
  read_host
  rfl

/-- The destination list with self-loops, at the first call's entry. -/
theorem dst_entry (c : Dev nD) :
    W3 m ρ c (Proc.devRef .tc main_v6) = val_main_v6 (F := F) (m ((c.tc : Thread nD τ).loc main_arg1)) := by
  show StableHlo.after hostOps0_2 (StableHlo.after hostOps0_1 (StableHlo.after hostOps0 (W0 m ρ c))) (Proc.devRef .tc main_v6) = _
  simp only [hostOps0, hostOps0_1, hostOps0_2]
  read_host
  rfl

/-- The edge normalisation, at the first call's entry: the reference's, operation for operation. -/
theorem nrm_entry (c : Dev nD) :
    W3 m ρ c (Proc.devRef .tc main_v36) = val_main_v37 (F := F) (m ((c.tc : Thread nD τ).loc main_arg1)) := by
  show StableHlo.after hostOps0_2 (StableHlo.after hostOps0_1 (StableHlo.after hostOps0 (W0 m ρ c))) (Proc.devRef .tc main_v36) = _
  simp only [hostOps0, hostOps0_1, hostOps0_2]
  read_host
  try simp only [StableHlo.TRef.ofBuf, StableHlo.TRef.toBuf, cast_eq]
  rfl

/-- An argument array is as launched at the first call's entry. -/
theorem arg_entry (b : Ref sig .tc) (hb : b = main_arg0 ∨ b = main_arg2 ∨ b = main_arg3 ∨ b = main_arg4 ∨ b = main_arg5) (c : Dev nD) :
    W3 m ρ c (Proc.devRef .tc b) = W0 m ρ c (Proc.devRef .tc b) := by
  show StableHlo.after hostOps0_2 (StableHlo.after hostOps0_1 (StableHlo.after hostOps0 (W0 m ρ c))) (Proc.devRef .tc b) = _
  rcases hb with rfl | rfl | rfl | rfl | rfl <;>
    (simp only [hostOps0, hostOps0_1, hostOps0_2]; after_results_simp)

/-- A buffer that neither the first call, nor the host stretch after it, nor the next two calls write keeps its
    contents from the first call's entry to the second projection call's exit. -/
theorem keep_to_W7 (b : Ref sig .tc) (c : Dev nD) (h0 : ∀ w, Pipeline.arrRef spec0 w ≠ b) (h1 : ∀ w, Pipeline.arrRef spec1 w ≠ b)
    (h2 : ∀ w, Pipeline.arrRef spec2 w ≠ b)
    (hw : ∀ op ∈ (hostOps1 : List (HloOp τ sig (Elt F))), Proc.devRef .tc b ∉ op.writes) :
    W7 m ρ c (Proc.devRef .tc b) = W3 m ρ c (Proc.devRef .tc b) :=
  calc W7 m ρ c (Proc.devRef .tc b)
    _ = W6 m ρ c (Proc.devRef .tc b) := W7_of_ne m ρ c b h2
    _ = W5 m ρ c (Proc.devRef .tc b) := W6_of_ne m ρ c b h1
    _ = W4 m ρ c (Proc.devRef .tc b) := StableHlo.after_of_forall_not_mem (b := Proc.devRef .tc b) _ _ hw
    _ = W3 m ρ c (Proc.devRef .tc b) := W4_of_ne m ρ c b h0

end Entry

/-! ## The reference's stages read as the kernel's whole-array functions, at the ideal instance -/

section Stages

/-- The reference's first projection is the whole-array product. -/
theorem dot1_is_product (x0 : FVec Ideal S100000x128 .f32) (x2 : FVec Ideal S128x128 .f32) :
    val_main_v7 (F := Ideal) x0 x2 = product x0 x2 := by
  funext i
  rw [val_main_v7_apply]
  rfl

/-- The reference's second projection is the whole-array product of the first layer's output. -/
theorem dot2_is_product (x0 : FVec Ideal S100000x128 .f32) (x1 : IVec S2x1600000 32) (x2 : FVec Ideal S128x128 .f32)
    (x3 : FVec Ideal S128 .f32) (x4 : FVec Ideal S128x128 .f32) :
    val_main_v55 (F := Ideal) x0 x1 x2 x3 x4 = product (val_main_v54 (F := Ideal) x0 x1 x2 x3) x4 := by
  funext i
  rw [val_main_v55_apply]
  rfl

/-- The entry of a 128-vector that entry `i` of the array adds. -/
abbrev biasIx (i : S100000x128.Idx) : S128.Idx := fun a => match a with
  | ⟨0, _⟩ => ⟨(i 1).val, (i 1).isLt⟩

/-- The bias vector reshaped to a row, at the entry a result entry adds. -/
theorem bias_row_apply (b : FVec Ideal S128 .f32) (i : S100000x128.Idx) :
    shapeCast S1x128 b shapeCasts_S128_S1x128 (biasOf i) = b (biasIx i) :=
  shapeCast_apply b shapeCasts_S128_S1x128 (biasOf i) (biasIx i) (by
    rw [Shape.rowMajor_val_one, Shape.rowMajor_val_two]
    show (i 1).val = 0 * 128 + (i 1).val
    omega)

/-- The reference's first bias, add and rectifier are the kernel's, entry by entry. -/
theorem relu1_is_rectified (x0 : FVec Ideal S100000x128 .f32) (x1 : IVec S2x1600000 32) (x2 : FVec Ideal S128x128 .f32)
    (x3 : FVec Ideal S128 .f32) :
    val_main_v54 (F := Ideal) x0 x1 x2 x3
      = rectified (val_main_v50 (F := Ideal) x0 x1 x2) (shapeCast S1x128 x3 shapeCasts_S128_S1x128) := by
  funext i
  rw [val_main_v54_apply, val_main_v53_apply, val_main_v52_apply, val_main_v51_apply, val_main_call1_v0_apply,
    val_main_call1_cst_apply]
  have hidx : idx_main_v51 (idx_main_v52 i) = biasIx i := funext fun a => match a with | ⟨0, _⟩ => rfl
  show _ = FloatOps.maximumf (FloatOps.addf (val_main_v50 (F := Ideal) x0 x1 x2 i) (shapeCast S1x128 x3 shapeCasts_S128_S1x128 (biasOf i)))
    (FloatOps.ofBits (F := Ideal) .f32 0x00000000#32)
  rw [bias_row_apply, hidx]

/-- The reference's second bias, add and rectifier are the kernel's, entry by entry. -/
theorem relu2_is_rectified (x0 : FVec Ideal S100000x128 .f32) (x1 : IVec S2x1600000 32) (x2 : FVec Ideal S128x128 .f32)
    (x3 : FVec Ideal S128 .f32) (x4 : FVec Ideal S128x128 .f32) (x5 : FVec Ideal S128 .f32) :
    val_main_v102 (F := Ideal) x0 x1 x2 x3 x4 x5
      = rectified (val_main_v98 (F := Ideal) x0 x1 x2 x3 x4) (shapeCast S1x128 x5 shapeCasts_S128_S1x128) := by
  funext i
  rw [val_main_v102_apply, val_main_v101_apply, val_main_v100_apply, val_main_v99_apply, val_main_call3_v0_apply,
    val_main_call3_cst_apply]
  have hidx : idx_main_v99 (idx_main_v100 i) = biasIx i := funext fun a => match a with | ⟨0, _⟩ => rfl
  show _ = FloatOps.maximumf (FloatOps.addf (val_main_v98 (F := Ideal) x0 x1 x2 x3 x4 i) (shapeCast S1x128 x5 shapeCasts_S128_S1x128 (biasOf i)))
    (FloatOps.ofBits (F := Ideal) .f32 0x00000000#32)
  rw [bias_row_apply, hidx]

end Stages

/-! ## The kernel program's memory, boundary by boundary -/

section Run

variable (m : (ℓ : Loc nD τ sig) → Buf (Elt Ideal) ℓ) (ρ : Dev nD → PrngReg)

/-- The argument arrays as launched, at their literal types. -/
abbrev a0 (c : Dev nD) : FVec Ideal S100000x128 .f32 := m ((c.tc : Thread nD τ).loc main_arg0)
abbrev a1 (c : Dev nD) : IVec S2x1600000 32 := m ((c.tc : Thread nD τ).loc main_arg1)
abbrev a2 (c : Dev nD) : FVec Ideal S128x128 .f32 := m ((c.tc : Thread nD τ).loc main_arg2)
abbrev a3 (c : Dev nD) : FVec Ideal S128 .f32 := m ((c.tc : Thread nD τ).loc main_arg3)
abbrev a4 (c : Dev nD) : FVec Ideal S128x128 .f32 := m ((c.tc : Thread nD τ).loc main_arg4)
abbrev a5 (c : Dev nD) : FVec Ideal S128 .f32 := m ((c.tc : Thread nD τ).loc main_arg5)

/-- After the first projection call its result is the reference's first `dot_general`. -/
theorem v37_value (c : Dev nD) :
    W4 m ρ c (Proc.devRef .tc main_v37) = val_main_v7 (F := Ideal) (a0 m c) (a2 m c) :=
  (W4_arr m ρ c 2).trans ((final0 (V3 m ρ) c).trans (by
    rw [show V3 m ρ c main_arg0 = a0 m c from arg_entry m ρ main_arg0 (.inl rfl) c,
      show V3 m ρ c main_arg2 = a2 m c from arg_entry m ρ main_arg2 (.inr (.inl rfl)) c]
    exact (dot1_is_product _ _).symm))

theorem W4_src (c : Dev nD) : W4 m ρ c (Proc.devRef .tc main_v3) = val_main_v3 (F := Ideal) (a1 m c) :=
  (W4_of_ne m ρ c main_v3 (by decide)).trans (src_entry m ρ c)
theorem W4_dst (c : Dev nD) : W4 m ρ c (Proc.devRef .tc main_v6) = val_main_v6 (F := Ideal) (a1 m c) :=
  (W4_of_ne m ρ c main_v6 (by decide)).trans (dst_entry m ρ c)
theorem W4_nrm (c : Dev nD) : W4 m ρ c (Proc.devRef .tc main_v36) = val_main_v37 (F := Ideal) (a1 m c) :=
  (W4_of_ne m ρ c main_v36 (by decide)).trans (nrm_entry m ρ c)
theorem W4_b1 (c : Dev nD) : W4 m ρ c (Proc.devRef .tc main_arg3) = a3 m c :=
  (W4_of_ne m ρ c main_arg3 (by decide)).trans (arg_entry m ρ main_arg3 (.inr (.inr (.inl rfl))) c)

/-- After the host stretch that follows, the aggregated array is the reference's first aggregation. -/
theorem v50_value (c : Dev nD) :
    W5 m ρ c (Proc.devRef .tc main_v50) = val_main_v50 (F := Ideal) (a0 m c) (a1 m c) (a2 m c) := by
  show StableHlo.after hostOps1 (W4 m ρ c) (Proc.devRef .tc main_v50) = _
  simp only [hostOps1]
  after_results_simp
  rw [v37_value m ρ c, W4_src m ρ c, W4_dst m ρ c, W4_nrm m ρ c]
  rfl

/-- And the first bias vector is there as a row. -/
theorem v51_value (c : Dev nD) :
    W5 m ρ c (Proc.devRef .tc main_v51) = shapeCast S1x128 (a3 m c) shapeCasts_S128_S1x128 := by
  show StableHlo.after hostOps1 (W4 m ρ c) (Proc.devRef .tc main_v51) = _
  simp only [hostOps1]
  after_results_simp
  rw [W4_b1 m ρ c]
  rfl

/-- After the first bias call its result is the reference's first layer. -/
theorem v52_value (c : Dev nD) :
    W6 m ρ c (Proc.devRef .tc main_v52) = val_main_v54 (F := Ideal) (a0 m c) (a1 m c) (a2 m c) (a3 m c) :=
  (W6_arr m ρ c 2).trans ((final1 (V5 m ρ) c).trans (by
    rw [show V5 m ρ c main_v50 = _ from v50_value m ρ c, show V5 m ρ c main_v51 = _ from v51_value m ρ c]
    exact (relu1_is_rectified _ _ _ _).symm))

theorem W6_w2 (c : Dev nD) : W6 m ρ c (Proc.devRef .tc main_arg4) = a4 m c :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_forall_not_mem (b := Proc.devRef .tc main_arg4) _ _ (by unwritten)
    _ = W3 m ρ c (Proc.devRef .tc main_arg4) := W4_of_ne m ρ c main_arg4 (by decide)
    _ = a4 m c := arg_entry m ρ main_arg4 (.inr (.inr (.inr (.inl rfl)))) c

/-- After the second projection call its result is the reference's second `dot_general`. -/
theorem v53_value (c : Dev nD) :
    W7 m ρ c (Proc.devRef .tc main_v53) = val_main_v55 (F := Ideal) (a0 m c) (a1 m c) (a2 m c) (a3 m c) (a4 m c) :=
  (W7_arr m ρ c 2).trans ((final2 (V6 m ρ) c).trans (by
    rw [show V6 m ρ c main_v52 = _ from v52_value m ρ c, show V6 m ρ c main_arg4 = _ from W6_w2 m ρ c]
    exact (dot2_is_product _ _ _ _ _).symm))

theorem W7_src (c : Dev nD) : W7 m ρ c (Proc.devRef .tc main_v3) = val_main_v3 (F := Ideal) (a1 m c) :=
  (keep_to_W7 m ρ main_v3 c (by decide) (by decide) (by decide) (by unwritten)).trans (src_entry m ρ c)
theorem W7_dst (c : Dev nD) : W7 m ρ c (Proc.devRef .tc main_v6) = val_main_v6 (F := Ideal) (a1 m c) :=
  (keep_to_W7 m ρ main_v6 c (by decide) (by decide) (by decide) (by unwritten)).trans (dst_entry m ρ c)
/-- The normalisation the second layer uses, named as the reference's second computation of it. -/
theorem W7_nrm (c : Dev nD) : W7 m ρ c (Proc.devRef .tc main_v36) = val_main_v85 (F := Ideal) (a1 m c) :=
  ((keep_to_W7 m ρ main_v36 c (by decide) (by decide) (by decide) (by unwritten)).trans (nrm_entry m ρ c)).trans
    (Cert.ReferenceIdeal.Tail.norm_same _).symm
theorem W7_b2 (c : Dev nD) : W7 m ρ c (Proc.devRef .tc main_arg5) = a5 m c :=
  (keep_to_W7 m ρ main_arg5 c (by decide) (by decide) (by decide) (by unwritten)).trans
    (arg_entry m ρ main_arg5 (.inr (.inr (.inr (.inr rfl)))) c)

/-- After the second aggregation the aggregated array is the reference's. -/
theorem v66_value (c : Dev nD) :
    W8 m ρ c (Proc.devRef .tc main_v66) = val_main_v98 (F := Ideal) (a0 m c) (a1 m c) (a2 m c) (a3 m c) (a4 m c) := by
  show StableHlo.after hostOps3 (W7 m ρ c) (Proc.devRef .tc main_v66) = _
  simp only [hostOps3]
  after_results_simp
  rw [v53_value m ρ c, W7_src m ρ c, W7_dst m ρ c, W7_nrm m ρ c]
  rfl

/-- And the second bias vector is there as a row. -/
theorem v67_value (c : Dev nD) :
    W8 m ρ c (Proc.devRef .tc main_v67) = shapeCast S1x128 (a5 m c) shapeCasts_S128_S1x128 := by
  show StableHlo.after hostOps3 (W7 m ρ c) (Proc.devRef .tc main_v67) = _
  simp only [hostOps3]
  after_results_simp
  rw [W7_b2 m ρ c]
  rfl

/-- THE RESULT: after the second bias call the result buffer holds the reference's second layer. -/
theorem result_value (c : Dev nD) :
    W9 m ρ c (Proc.devRef .tc main_v68)
      = val_main_v102 (F := Ideal) (a0 m c) (a1 m c) (a2 m c) (a3 m c) (a4 m c) (a5 m c) :=
  (W9_arr m ρ c 2).trans ((final3 (V8 m ρ) c).trans (by
    rw [show V8 m ρ c main_v66 = _ from v66_value m ρ c, show V8 m ρ c main_v67 = _ from v67_value m ρ c]
    exact (relu2_is_rectified _ _ _ _ _ _).symm))

end Run

end Cert.Bridge

end
-- ==== Proof.lean ====
/-
  A two-layer graph convolution over 100000 nodes and 1.7 million edges (the given edges and one self-loop per node),
  each layer  h ↦ max(D^(-1/2) (A + I) D^(-1/2) (h W) + b, 0),  the kernel program against its jnp reference, over the
  extended reals.

  The kernel program runs the projection h W and the bias-and-rectifier as two Pallas kernels per layer, each over ten
  row blocks of 10000 rows, and leaves the degree count, the normalisation, the gather of rows by source and the
  sum into destinations to the host; the reference does everything on the host and ends with a mean pool in which
  every node is its own graph.

  At the ideal instance the two compute the same thing entry by entry:
    * a projection block is the matrix product of its rows with the weights (the bf16 casts of the operands are the
      identity, the accumulator starts at zero), and the ten blocks tile the whole product, which is the reference's
      `dot_general`;
    * the host operations between the calls are the reference's own, on equal operands;
    * the bias kernel's max(a + b, 0) is the reference's broadcast, add and maximum;
    * the reference's closing segment sum over the ids 0 … n − 1 into zeros, divided by a count of one, changes
      nothing: 0 + h, over 1.
  The finiteness of the inputs is not used: no law beyond 0 + x = x and x / 1 = x is needed, and both hold on all
  extended reals.

  The frames of the two kernel programs are the generated ones; the reference's frame is its run with the result
  dropped; the idealization rewrote nothing, so `preserves` is `True`.
-/
import proofs.«114214_j25881472926277_1_alg».proof.Defs
import proofs.«114214_j25881472926277_1_alg».proof.Proof.Gen.Kernel
import proofs.«114214_j25881472926277_1_alg».proof.Proof.Gen.Kernel.Skeleton
import proofs.«114214_j25881472926277_1_alg».proof.Proof.Gen.Kernel.Launch
import proofs.«114214_j25881472926277_1_alg».proof.Proof.Gen.Kernel.Points
import proofs.«114214_j25881472926277_1_alg».proof.Proof.Gen.Kernel.Frame
import proofs.«114214_j25881472926277_1_alg».proof.Proof.Gen.KernelIdeal
import proofs.«114214_j25881472926277_1_alg».proof.Proof.Gen.KernelIdeal.Skeleton
import proofs.«114214_j25881472926277_1_alg».proof.Proof.Gen.KernelIdeal.Launch
import proofs.«114214_j25881472926277_1_alg».proof.Proof.Gen.KernelIdeal.Points
import proofs.«114214_j25881472926277_1_alg».proof.Proof.Gen.KernelIdeal.Frame
import proofs.«114214_j25881472926277_1_alg».proof.Proof.Gen.ReferenceIdeal
import proofs.«114214_j25881472926277_1_alg».proof.Proof.RefRun
import proofs.«114214_j25881472926277_1_alg».proof.Proof.RefRead
import proofs.«114214_j25881472926277_1_alg».proof.Proof.RefTail
import proofs.«114214_j25881472926277_1_alg».proof.Proof.KRun
import proofs.«114214_j25881472926277_1_alg».proof.Proof.Bridge
import proofs.«114214_j25881472926277_1_alg».proof.Proof.Gen.Pre_finite_inputs
import Idealize.ShloMosaic.Adequacy
import Idealize.ShloMosaic.Init

noncomputable section

namespace Cert.Proof

open Idealize.ShloMosaic Idealize.SL.Sem

/-- The word-level kernel program runs and keeps its arguments: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both programs end with the second layer's output, as the reference's stage function of the six argument arrays:
    the kernel program because its last buffer holds it, the reference because its closing pool is the identity. -/
theorem algebraic : Cert.algebraic_KernelIdeal_ReferenceIdeal := by
  intro m ρ m' ρ' _ hagree
  refine ⟨fun c => Cert.ReferenceIdeal.ReadP.val_main_v102 (F := Ideal) (Cert.Bridge.a0 m c) (Cert.Bridge.a1 m c)
    (Cert.Bridge.a2 m c) (Cert.Bridge.a3 m c) (Cert.Bridge.a4 m c) (Cert.Bridge.a5 m c), ?_, ?_⟩
  · exact (θ_run Cert.KernelIdeal.defs _ _).mono
      (fun r h c => ⟨(h c).1.trans (Cert.Bridge.result_value m ρ c), (h c).2⟩)
      (Cert.KernelIdeal.RunP.run_result (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v109_eq, Cert.ReferenceIdeal.Tail.pooled_eq, (hagree c).1, (hagree c).2.1,
      (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
